-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v44)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v44) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v42) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S4x100000 : Shape := ⟨2, ![4, 100000]⟩
abbrev S800000 : Shape := ⟨1, ![800000]⟩
abbrev S100000 : Shape := ⟨1, ![100000]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S4x100000 : S_.BroadcastsInDim S4x100000 (![] : Fin 0 → Fin S4x100000.rank)
  reducesTo_S4x100000_S_d0_1 : S4x100000.ReducesTo [0, 1] S_
  bcast_S_S800000 : S_.BroadcastsInDim S800000 (![] : Fin 0 → Fin S800000.rank)
  reducesTo_S800000_S_d0 : S800000.ReducesTo [0] S_

variable [Facts]

def fn {F : FTy → Type} [FloatOps F] (main_arg0 : FVec F S100000x64 .f32) (main_arg1 : FVec F S4x100000 .f32) (main_arg2 : FVec F S800000 .f32) (main_arg3 : IVec S100000 32) (main_arg4 : IVec S800000 32) (main_arg5 : IVec S800000 32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S4x100000 .f32 := Host.absf main_arg1
  let main_cst_0 : FVec F S_ .f32 := constant S_ .f32 0x7F800000#32
  let main_v5 : FVec F S4x100000 .f32 := broadcastInDim S4x100000 ![] bcast_S_S4x100000 main_cst_0
  let main_v6 : IVec S4x100000 1 := cmpf .olt main_v4 main_v5
  let main_c_1 : IVec S_ 1 := constantI S_ 1 1#1
  let main_v7 : IVec S_ 1 := (fun x v => Host.reduce IntOp.andi x v reducesTo_S4x100000_S_d0_1 h_S_) main_v6 main_c_1
  let main_v8 : IVec S_ 1 := andi main_v3 main_v7
  let main_v9 : FVec F S800000 .f32 := Host.absf main_arg2
  let main_cst_2 : FVec F S_ .f32 := constant S_ .f32 0x7F800000#32
  let main_v10 : FVec F S800000 .f32 := broadcastInDim S800000 ![] bcast_S_S800000 main_cst_2
  let main_v11 : IVec S800000 1 := cmpf .olt main_v9 main_v10
  let main_c_3 : IVec S_ 1 := constantI S_ 1 1#1
  let main_v12 : IVec S_ 1 := (fun x v => Host.reduce IntOp.andi x v reducesTo_S800000_S_d0 h_S_) main_v11 main_c_3
  let main_v13 : IVec S_ 1 := andi main_v8 main_v12
  main_v13
-- ==== Kernel.lean ====
abbrev S100000x64 : Shape := ⟨2, ![100000, 64]⟩
abbrev S4x100000 : Shape := ⟨2, ![4, 100000]⟩
abbrev S800000 : Shape := ⟨1, ![800000]⟩
abbrev S100000 : Shape := ⟨1, ![100000]⟩
abbrev S_ : Shape := ⟨0, ![]⟩
abbrev S800000x1 : Shape := ⟨2, ![800000, 1]⟩
abbrev S800000x64 : Shape := ⟨2, ![800000, 64]⟩
abbrev S100000x1 : Shape := ⟨2, ![100000, 1]⟩
abbrev S100000x4 : Shape := ⟨2, ![100000, 4]⟩
abbrev S800000x4 : Shape := ⟨2, ![800000, 4]⟩
abbrev S800000x256 : Shape := ⟨2, ![800000, 256]⟩
abbrev S4000x4 : Shape := ⟨2, ![4000, 4]⟩
abbrev S4000x64 : Shape := ⟨2, ![4000, 64]⟩
abbrev S4000x256 : Shape := ⟨2, ![4000, 256]⟩
abbrev S4000x1 : Shape := ⟨2, ![4000, 1]⟩
abbrev S100000x256 : Shape := ⟨2, ![100000, 256]⟩
abbrev S100000x4x64 : Shape := ⟨3, ![100000, 4, 64]⟩
abbrev S1 : Shape := ⟨1, ![1]⟩

abbrev nBuf : Space → Nat
  | .hbm => 62
  | .vmem => 6
  | .smem => 0
  | _ => 0

abbrev bufTy : (tb : Table) → Fin (tcTables nBuf tb) → BufTy
  | .hbm, ⟨0, _⟩ => ⟨S100000x64, .f32⟩
  | .hbm, ⟨1, _⟩ => ⟨S4x100000, .f32⟩
  | .hbm, ⟨2, _⟩ => ⟨S800000, .f32⟩
  | .hbm, ⟨3, _⟩ => ⟨S100000, .i32⟩
  | .hbm, ⟨4, _⟩ => ⟨S800000, .i32⟩
  | .hbm, ⟨5, _⟩ => ⟨S800000, .i32⟩
  | .hbm, ⟨6, _⟩ => ⟨S_, .i32⟩
  | .hbm, ⟨7, _⟩ => ⟨S800000, .i32⟩
  | .hbm, ⟨8, _⟩ => ⟨S800000, .i1⟩
  | .hbm, ⟨9, _⟩ => ⟨S_, .i32⟩
  | .hbm, ⟨10, _⟩ => ⟨S800000, .i32⟩
  | .hbm, ⟨11, _⟩ => ⟨S800000, .i32⟩
  | .hbm, ⟨12, _⟩ => ⟨S800000, .i32⟩
  | .hbm, ⟨13, _⟩ => ⟨S800000x1, .i32⟩
  | .hbm, ⟨14, _⟩ => ⟨S800000x64, .f32⟩
  | .hbm, ⟨15, _⟩ => ⟨S800000x1, .f32⟩
  | .hbm, ⟨16, _⟩ => ⟨S800000x64, .f32⟩
  | .hbm, ⟨17, _⟩ => ⟨S800000x64, .f32⟩
  | .hbm, ⟨18, _⟩ => ⟨S_, .f32⟩
  | .hbm, ⟨19, _⟩ => ⟨S100000x64, .f32⟩
  | .hbm, ⟨20, _⟩ => ⟨S800000x1, .i32⟩
  | .hbm, ⟨21, _⟩ => ⟨S100000x64, .f32⟩
  | .hbm, ⟨22, _⟩ => ⟨S_, .i32⟩
  | .hbm, ⟨23, _⟩ => ⟨S100000, .i32⟩
  | .hbm, ⟨24, _⟩ => ⟨S100000, .i1⟩
  | .hbm, ⟨25, _⟩ => ⟨S_, .i32⟩
  | .hbm, ⟨26, _⟩ => ⟨S100000, .i32⟩
  | .hbm, ⟨27, _⟩ => ⟨S100000, .i32⟩
  | .hbm, ⟨28, _⟩ => ⟨S100000, .i32⟩
  | .hbm, ⟨29, _⟩ => ⟨S100000x1, .i32⟩
  | .hbm, ⟨30, _⟩ => ⟨S4x100000, .f32⟩
  | .hbm, ⟨31, _⟩ => ⟨S100000x4, .f32⟩
  | .hbm, ⟨32, _⟩ => ⟨S_, .i32⟩
  | .hbm, ⟨33, _⟩ => ⟨S800000, .i32⟩
  | .hbm, ⟨34, _⟩ => ⟨S800000, .i1⟩
  | .hbm, ⟨35, _⟩ => ⟨S_, .i32⟩
  | .hbm, ⟨36, _⟩ => ⟨S800000, .i32⟩
  | .hbm, ⟨37, _⟩ => ⟨S800000, .i32⟩
  | .hbm, ⟨38, _⟩ => ⟨S800000, .i32⟩
  | .hbm, ⟨39, _⟩ => ⟨S800000x1, .i32⟩
  | .hbm, ⟨40, _⟩ => ⟨S800000x64, .f32⟩
  | .hbm, ⟨41, _⟩ => ⟨S_, .i32⟩
  | .hbm, ⟨42, _⟩ => ⟨S800000, .i32⟩
  | .hbm, ⟨43, _⟩ => ⟨S800000, .i1⟩
  | .hbm, ⟨44, _⟩ => ⟨S_, .i32⟩
  | .hbm, ⟨45, _⟩ => ⟨S800000, .i32⟩
  | .hbm, ⟨46, _⟩ => ⟨S800000, .i32⟩
  | .hbm, ⟨47, _⟩ => ⟨S800000, .i32⟩
  | .hbm, ⟨48, _⟩ => ⟨S800000x1, .i32⟩
  | .hbm, ⟨49, _⟩ => ⟨S800000x4, .f32⟩
  | .hbm, ⟨50, _⟩ => ⟨S800000x1, .f32⟩
  | .hbm, ⟨51, _⟩ => ⟨S800000x4, .f32⟩
  | .hbm, ⟨52, _⟩ => ⟨S800000x4, .f32⟩
  | .hbm, ⟨53, _⟩ => ⟨S800000x256, .f32⟩
  | .hbm, ⟨54, _⟩ => ⟨S_, .f32⟩
  | .hbm, ⟨55, _⟩ => ⟨S100000x256, .f32⟩
  | .hbm, ⟨56, _⟩ => ⟨S800000x1, .i32⟩
  | .hbm, ⟨57, _⟩ => ⟨S100000x256, .f32⟩
  | .hbm, ⟨58, _⟩ => ⟨S100000x4x64, .f32⟩
  | .hbm, ⟨59, _⟩ => ⟨S_, .i32⟩
  | .hbm, ⟨60, _⟩ => ⟨S1, .i32⟩
  | .hbm, ⟨61, _⟩ => ⟨S100000x4x64, .f32⟩
  | .local _ .vmem, ⟨0, _⟩ => ⟨S4000x4, .f32⟩
  | .local _ .vmem, ⟨1, _⟩ => ⟨S4000x4, .f32⟩
  | .local _ .vmem, ⟨2, _⟩ => ⟨S4000x64, .f32⟩
  | .local _ .vmem, ⟨3, _⟩ => ⟨S4000x64, .f32⟩
  | .local _ .vmem, ⟨4, _⟩ => ⟨S4000x256, .f32⟩
  | .local _ .vmem, ⟨5, _⟩ => ⟨S4000x256, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_c_1 : Ref sig .tc := ⟨.hbm, 22, rfl⟩
abbrev main_v13 : Ref sig .tc := ⟨.hbm, 23, rfl⟩
abbrev main_v14 : Ref sig .tc := ⟨.hbm, 24, rfl⟩
abbrev main_c_2 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_c_3 : Ref sig .tc := ⟨.hbm, 32, rfl⟩
abbrev main_v21 : Ref sig .tc := ⟨.hbm, 33, rfl⟩
abbrev main_v22 : Ref sig .tc := ⟨.hbm, 34, rfl⟩
abbrev main_c_4 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_c_5 : Ref sig .tc := ⟨.hbm, 41, rfl⟩
abbrev main_v28 : Ref sig .tc := ⟨.hbm, 42, rfl⟩
abbrev main_v29 : Ref sig .tc := ⟨.hbm, 43, rfl⟩
abbrev main_c_6 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_cst_7 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_c_8 : Ref sig .tc := ⟨.hbm, 59, rfl⟩
abbrev main_v43 : Ref sig .tc := ⟨.hbm, 60, rfl⟩
abbrev main_v44 : Ref sig .tc := ⟨.hbm, 61, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![200], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x4 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4000x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  bcast_S_S800000 : S_.BroadcastsInDim S800000 (![] : Fin 0 → Fin S800000.rank)
  bcast_S800000_S800000x1_0 : S800000.BroadcastsInDim S800000x1 (![0] : Fin 1 → Fin S800000x1.rank)
  bcast_S800000x1_S800000x64_0_1 : S800000x1.BroadcastsInDim S800000x64 (![0, 1] : Fin 2 → Fin S800000x64.rank)
  bcast_S_S100000x64 : S_.BroadcastsInDim S100000x64 (![] : Fin 0 → Fin S100000x64.rank)
  bcast_S_S100000 : S_.BroadcastsInDim S100000 (![] : Fin 0 → Fin S100000.rank)
  bcast_S100000_S100000x1_0 : S100000.BroadcastsInDim S100000x1 (![0] : Fin 1 → Fin S100000x1.rank)
  transposes_S4x100000_S100000x4_1_0 : S4x100000.Transposes [1, 0] S100000x4
  bcast_S800000x1_S800000x4_0_1 : S800000x1.BroadcastsInDim S800000x4 (![0, 1] : Fin 2 → Fin S800000x4.rank)
  inb_S4000x64_S4000x64_0_0 : ∀ a, (![0, 0] : Fin 2 → Nat) a + S4000x64.size a ≤ S4000x64.size a
  h_S4000x64 : 0 < S4000x64.numel
  shapeCasts_S4000x64_S4000x64 : S4000x64.ShapeCasts S4000x64
  inb_S4000x4_S4000x1_0_0 : ∀ a, (![0, 0] : Fin 2 → Nat) a + S4000x1.size a ≤ S4000x4.size a
  h_S4000x1 : 0 < S4000x1.numel
  shapeCasts_S4000x1_S4000x1 : S4000x1.ShapeCasts S4000x1
  broadcasts_S4000x1_S4000x64 : S4000x1.Broadcasts S4000x64
  inb_S4000x256_S4000x64_0_0 : ∀ a, (![0, 0] : Fin 2 → Nat) a + S4000x64.size a ≤ S4000x256.size a
  inb_S4000x4_S4000x1_0_1 : ∀ a, (![0, 1] : Fin 2 → Nat) a + S4000x1.size a ≤ S4000x4.size a
  inb_S4000x256_S4000x64_0_64 : ∀ a, (![0, 64] : Fin 2 → Nat) a + S4000x64.size a ≤ S4000x256.size a
  inb_S4000x4_S4000x1_0_2 : ∀ a, (![0, 2] : Fin 2 → Nat) a + S4000x1.size a ≤ S4000x4.size a
  inb_S4000x256_S4000x64_0_128 : ∀ a, (![0, 128] : Fin 2 → Nat) a + S4000x64.size a ≤ S4000x256.size a
  inb_S4000x4_S4000x1_0_3 : ∀ a, (![0, 3] : Fin 2 → Nat) a + S4000x1.size a ≤ S4000x4.size a
  inb_S4000x256_S4000x64_0_192 : ∀ a, (![0, 192] : Fin 2 → Nat) a + S4000x64.size a ≤ S4000x256.size a
  bcast_S_S100000x256 : S_.BroadcastsInDim S100000x256 (![] : Fin 0 → Fin S100000x256.rank)
  shapeCasts_S100000x256_S100000x4x64 : S100000x256.ShapeCasts S100000x4x64
  bcast_S_S1 : S_.BroadcastsInDim S1 (![] : Fin 0 → Fin S1.rank)
  gather_S100000x64_S800000x1_S800000x64_1_0_n_n_0_1_164_wf : GatherDims.WF S100000x64 S800000x1 S800000x64 [1] [0] [] [0] [] 1 ![1, 64]
  scatter_S100000x64_S800000x1_S800000x64_1_0_0_1_wf : ScatterDims.WF S100000x64 S800000x1 S800000x64 [1] [0] [0] 1
  gather_S4x100000_S100000x1_S4x100000_0_1_n_n_1_1_41_wf : GatherDims.WF S4x100000 S100000x1 S4x100000 [0] [1] [] [1] [] 1 ![4, 1]
  gather_S100000x4_S800000x1_S800000x4_1_0_n_n_0_1_14_wf : GatherDims.WF S100000x4 S800000x1 S800000x4 [1] [0] [] [0] [] 1 ![1, 4]
  scatter_S100000x256_S800000x1_S800000x256_1_0_0_1_wf : ScatterDims.WF S100000x256 S800000x1 S800000x256 [1] [0] [0] 1
  scatter_S100000x4x64_S1_S100000x64_01_1_1_0_wf : ScatterDims.WF S100000x4x64 S1 S100000x64 [0, 1] [1] [1] 0
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x4.size a ≤ S800000x4.size a
  hwx0_0 : ∀ i : grid0.Coords, EltTy.bits .f32 = 32 ∨ (Rect.block (s := S800000x4) S4000x4.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x64.size a ≤ S800000x64.size a
  hwx0_1 : ∀ i : grid0.Coords, EltTy.bits .f32 = 32 ∨ (Rect.block (s := S800000x64) S4000x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x256.size a ≤ S800000x256.size a
  hwx0_2 : ∀ i : grid0.Coords, EltTy.bits .f32 = 32 ∨ (Rect.block (s := S800000x256) S4000x256.size (cc0_transform_2 i) (hinb0_2 i)).WholeWords (EltTy.packing .f32)

variable [Facts₀]

def gather_S100000x64_S800000x1_S800000x64_1_0_n_n_0_1_164 : GatherDims S100000x64 S800000x1 S800000x64 where
  offsetDims := [1]
  collapsedSliceDims := [0]
  operandBatchingDims := []
  startIndicesBatchingDims := []
  startIndexMap := [0]
  indexVectorDim := 1
  sliceSizes := ![1, 64]
  wf := gather_S100000x64_S800000x1_S800000x64_1_0_n_n_0_1_164_wf
def scatter_S100000x64_S800000x1_S800000x64_1_0_0_1 : ScatterDims S100000x64 S800000x1 S800000x64 where
  updateWindowDims := [1]
  insertedWindowDims := [0]
  scatterDimsToOperandDims := [0]
  indexVectorDim := 1
  wf := scatter_S100000x64_S800000x1_S800000x64_1_0_0_1_wf
def gather_S4x100000_S100000x1_S4x100000_0_1_n_n_1_1_41 : GatherDims S4x100000 S100000x1 S4x100000 where
  offsetDims := [0]
  collapsedSliceDims := [1]
  operandBatchingDims := []
  startIndicesBatchingDims := []
  startIndexMap := [1]
  indexVectorDim := 1
  sliceSizes := ![4, 1]
  wf := gather_S4x100000_S100000x1_S4x100000_0_1_n_n_1_1_41_wf
def gather_S100000x4_S800000x1_S800000x4_1_0_n_n_0_1_14 : GatherDims S100000x4 S800000x1 S800000x4 where
  offsetDims := [1]
  collapsedSliceDims := [0]
  operandBatchingDims := []
  startIndicesBatchingDims := []
  startIndexMap := [0]
  indexVectorDim := 1
  sliceSizes := ![1, 4]
  wf := gather_S100000x4_S800000x1_S800000x4_1_0_n_n_0_1_14_wf
def scatter_S100000x256_S800000x1_S800000x256_1_0_0_1 : ScatterDims S100000x256 S800000x1 S800000x256 where
  updateWindowDims := [1]
  insertedWindowDims := [0]
  scatterDimsToOperandDims := [0]
  indexVectorDim := 1
  wf := scatter_S100000x256_S800000x1_S800000x256_1_0_0_1_wf
def scatter_S100000x4x64_S1_S100000x64_01_1_1_0 : ScatterDims S100000x4x64 S1 S100000x64 where
  updateWindowDims := [0, 1]
  insertedWindowDims := [1]
  scatterDimsToOperandDims := [1]
  indexVectorDim := 0
  wf := scatter_S100000x4x64_S1_S100000x64_01_1_1_0_wf

abbrev win0_0 : Pipeline.Window sig grid0 :=
  Pipeline.Window.ofSpec (Memref.whole main_v37) S4000x4.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v27) S4000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v38) S4000x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S100000x64 : Shape := ⟨2, ![100000, 64]⟩
abbrev S4x100000 : Shape := ⟨2, ![4, 100000]⟩
abbrev S800000 : Shape := ⟨1, ![800000]⟩
abbrev S100000 : Shape := ⟨1, ![100000]⟩
abbrev S_ : Shape := ⟨0, ![]⟩
abbrev S800000x1 : Shape := ⟨2, ![800000, 1]⟩
abbrev S800000x64 : Shape := ⟨2, ![800000, 64]⟩
abbrev S100000x1 : Shape := ⟨2, ![100000, 1]⟩
abbrev S100000x4 : Shape := ⟨2, ![100000, 4]⟩
abbrev S100000x4x1 : Shape := ⟨3, ![100000, 4, 1]⟩
abbrev S100000x1x64 : Shape := ⟨3, ![100000, 1, 64]⟩
abbrev S100000x4x64 : Shape := ⟨3, ![100000, 4, 64]⟩
abbrev S100000x256 : Shape := ⟨2, ![100000, 256]⟩
abbrev S800000x256 : Shape := ⟨2, ![800000, 256]⟩
abbrev S1 : Shape := ⟨1, ![1]⟩

abbrev nBuf : Space → Nat
  | .hbm => 58
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S4x100000, .f32⟩
  | .hbm, ⟨2, _⟩ => ⟨S800000, .f32⟩
  | .hbm, ⟨3, _⟩ => ⟨S100000, .i32⟩
  | .hbm, ⟨4, _⟩ => ⟨S800000, .i32⟩
  | .hbm, ⟨5, _⟩ => ⟨S800000, .i32⟩
  | .hbm, ⟨6, _⟩ => ⟨S_, .i32⟩
  | .hbm, ⟨7, _⟩ => ⟨S800000, .i32⟩
  | .hbm, ⟨8, _⟩ => ⟨S800000, .i1⟩
  | .hbm, ⟨9, _⟩ => ⟨S_, .i32⟩
  | .hbm, ⟨10, _⟩ => ⟨S800000, .i32⟩
  | .hbm, ⟨11, _⟩ => ⟨S800000, .i32⟩
  | .hbm, ⟨12, _⟩ => ⟨S800000, .i32⟩
  | .hbm, ⟨13, _⟩ => ⟨S800000x1, .i32⟩
  | .hbm, ⟨14, _⟩ => ⟨S800000x64, .f32⟩
  | .hbm, ⟨15, _⟩ => ⟨S800000x1, .f32⟩
  | .hbm, ⟨16, _⟩ => ⟨S800000x64, .f32⟩
  | .hbm, ⟨17, _⟩ => ⟨S800000x64, .f32⟩
  | .hbm, ⟨18, _⟩ => ⟨S_, .f32⟩
  | .hbm, ⟨19, _⟩ => ⟨S100000x64, .f32⟩
  | .hbm, ⟨20, _⟩ => ⟨S800000x1, .i32⟩
  | .hbm, ⟨21, _⟩ => ⟨S100000x64, .f32⟩
  | .hbm, ⟨22, _⟩ => ⟨S_, .i32⟩
  | .hbm, ⟨23, _⟩ => ⟨S100000, .i32⟩
  | .hbm, ⟨24, _⟩ => ⟨S100000, .i1⟩
  | .hbm, ⟨25, _⟩ => ⟨S_, .i32⟩
  | .hbm, ⟨26, _⟩ => ⟨S100000, .i32⟩
  | .hbm, ⟨27, _⟩ => ⟨S100000, .i32⟩
  | .hbm, ⟨28, _⟩ => ⟨S100000, .i32⟩
  | .hbm, ⟨29, _⟩ => ⟨S100000x1, .i32⟩
  | .hbm, ⟨30, _⟩ => ⟨S4x100000, .f32⟩
  | .hbm, ⟨31, _⟩ => ⟨S100000x4, .f32⟩
  | .hbm, ⟨32, _⟩ => ⟨S100000x4x1, .f32⟩
  | .hbm, ⟨33, _⟩ => ⟨S100000x1x64, .f32⟩
  | .hbm, ⟨34, _⟩ => ⟨S100000x4x64, .f32⟩
  | .hbm, ⟨35, _⟩ => ⟨S100000x4x64, .f32⟩
  | .hbm, ⟨36, _⟩ => ⟨S100000x4x64, .f32⟩
  | .hbm, ⟨37, _⟩ => ⟨S100000x256, .f32⟩
  | .hbm, ⟨38, _⟩ => ⟨S_, .i32⟩
  | .hbm, ⟨39, _⟩ => ⟨S800000, .i32⟩
  | .hbm, ⟨40, _⟩ => ⟨S800000, .i1⟩
  | .hbm, ⟨41, _⟩ => ⟨S_, .i32⟩
  | .hbm, ⟨42, _⟩ => ⟨S800000, .i32⟩
  | .hbm, ⟨43, _⟩ => ⟨S800000, .i32⟩
  | .hbm, ⟨44, _⟩ => ⟨S800000, .i32⟩
  | .hbm, ⟨45, _⟩ => ⟨S800000x1, .i32⟩
  | .hbm, ⟨46, _⟩ => ⟨S800000x256, .f32⟩
  | .hbm, ⟨47, _⟩ => ⟨S800000x1, .f32⟩
  | .hbm, ⟨48, _⟩ => ⟨S800000x256, .f32⟩
  | .hbm, ⟨49, _⟩ => ⟨S800000x256, .f32⟩
  | .hbm, ⟨50, _⟩ => ⟨S_, .f32⟩
  | .hbm, ⟨51, _⟩ => ⟨S100000x256, .f32⟩
  | .hbm, ⟨52, _⟩ => ⟨S800000x1, .i32⟩
  | .hbm, ⟨53, _⟩ => ⟨S100000x256, .f32⟩
  | .hbm, ⟨54, _⟩ => ⟨S100000x4x64, .f32⟩
  | .hbm, ⟨55, _⟩ => ⟨S_, .i32⟩
  | .hbm, ⟨56, _⟩ => ⟨S1, .i32⟩
  | .hbm, ⟨57, _⟩ => ⟨S100000x4x64, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_c_1 : Ref sig .tc := ⟨.hbm, 22, rfl⟩
abbrev main_v13 : Ref sig .tc := ⟨.hbm, 23, rfl⟩
abbrev main_v14 : Ref sig .tc := ⟨.hbm, 24, rfl⟩
abbrev main_c_2 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_c_3 : Ref sig .tc := ⟨.hbm, 38, rfl⟩
abbrev main_v27 : Ref sig .tc := ⟨.hbm, 39, rfl⟩
abbrev main_v28 : Ref sig .tc := ⟨.hbm, 40, rfl⟩
abbrev main_c_4 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_cst_5 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_c_6 : Ref sig .tc := ⟨.hbm, 55, rfl⟩
abbrev main_v41 : Ref sig .tc := ⟨.hbm, 56, rfl⟩
abbrev main_v42 : Ref sig .tc := ⟨.hbm, 57, rfl⟩

abbrev nD : Nat := 1
abbrev τ : Topo := Topo.v7x

variable {F : FTy → Type} [FloatOps F]

class Facts₀ : Prop where
  bcast_S_S800000 : S_.BroadcastsInDim S800000 (![] : Fin 0 → Fin S800000.rank)
  bcast_S800000_S800000x1_0 : S800000.BroadcastsInDim S800000x1 (![0] : Fin 1 → Fin S800000x1.rank)
  bcast_S800000x1_S800000x64_0_1 : S800000x1.BroadcastsInDim S800000x64 (![0, 1] : Fin 2 → Fin S800000x64.rank)
  bcast_S_S100000x64 : S_.BroadcastsInDim S100000x64 (![] : Fin 0 → Fin S100000x64.rank)
  bcast_S_S100000 : S_.BroadcastsInDim S100000 (![] : Fin 0 → Fin S100000.rank)
  bcast_S100000_S100000x1_0 : S100000.BroadcastsInDim S100000x1 (![0] : Fin 1 → Fin S100000x1.rank)
  transposes_S4x100000_S100000x4_1_0 : S4x100000.Transposes [1, 0] S100000x4
  bcast_S100000x4_S100000x4x1_0_1 : S100000x4.BroadcastsInDim S100000x4x1 (![0, 1] : Fin 2 → Fin S100000x4x1.rank)
  bcast_S100000x64_S100000x1x64_0_2 : S100000x64.BroadcastsInDim S100000x1x64 (![0, 2] : Fin 2 → Fin S100000x1x64.rank)
  bcast_S100000x4x1_S100000x4x64_0_1_2 : S100000x4x1.BroadcastsInDim S100000x4x64 (![0, 1, 2] : Fin 3 → Fin S100000x4x64.rank)
  bcast_S100000x1x64_S100000x4x64_0_1_2 : S100000x1x64.BroadcastsInDim S100000x4x64 (![0, 1, 2] : Fin 3 → Fin S100000x4x64.rank)
  shapeCasts_S100000x4x64_S100000x256 : S100000x4x64.ShapeCasts S100000x256
  bcast_S800000x1_S800000x256_0_1 : S800000x1.BroadcastsInDim S800000x256 (![0, 1] : Fin 2 → Fin S800000x256.rank)
  bcast_S_S100000x256 : S_.BroadcastsInDim S100000x256 (![] : Fin 0 → Fin S100000x256.rank)
  shapeCasts_S100000x256_S100000x4x64 : S100000x256.ShapeCasts S100000x4x64
  bcast_S_S1 : S_.BroadcastsInDim S1 (![] : Fin 0 → Fin S1.rank)
  gather_S100000x64_S800000x1_S800000x64_1_0_n_n_0_1_164_wf : GatherDims.WF S100000x64 S800000x1 S800000x64 [1] [0] [] [0] [] 1 ![1, 64]
  scatter_S100000x64_S800000x1_S800000x64_1_0_0_1_wf : ScatterDims.WF S100000x64 S800000x1 S800000x64 [1] [0] [0] 1
  gather_S4x100000_S100000x1_S4x100000_0_1_n_n_1_1_41_wf : GatherDims.WF S4x100000 S100000x1 S4x100000 [0] [1] [] [1] [] 1 ![4, 1]
  gather_S100000x256_S800000x1_S800000x256_1_0_n_n_0_1_1256_wf : GatherDims.WF S100000x256 S800000x1 S800000x256 [1] [0] [] [0] [] 1 ![1, 256]
  scatter_S100000x256_S800000x1_S800000x256_1_0_0_1_wf : ScatterDims.WF S100000x256 S800000x1 S800000x256 [1] [0] [0] 1
  scatter_S100000x4x64_S1_S100000x64_01_1_1_0_wf : ScatterDims.WF S100000x4x64 S1 S100000x64 [0, 1] [1] [1] 0

variable [Facts₀]

def gather_S100000x64_S800000x1_S800000x64_1_0_n_n_0_1_164 : GatherDims S100000x64 S800000x1 S800000x64 where
  offsetDims := [1]
  collapsedSliceDims := [0]
  operandBatchingDims := []
  startIndicesBatchingDims := []
  startIndexMap := [0]
  indexVectorDim := 1
  sliceSizes := ![1, 64]
  wf := gather_S100000x64_S800000x1_S800000x64_1_0_n_n_0_1_164_wf
def scatter_S100000x64_S800000x1_S800000x64_1_0_0_1 : ScatterDims S100000x64 S800000x1 S800000x64 where
  updateWindowDims := [1]
  insertedWindowDims := [0]
  scatterDimsToOperandDims := [0]
  indexVectorDim := 1
  wf := scatter_S100000x64_S800000x1_S800000x64_1_0_0_1_wf
def gather_S4x100000_S100000x1_S4x100000_0_1_n_n_1_1_41 : GatherDims S4x100000 S100000x1 S4x100000 where
  offsetDims := [0]
  collapsedSliceDims := [1]
  operandBatchingDims := []
  startIndicesBatchingDims := []
  startIndexMap := [1]
  indexVectorDim := 1
  sliceSizes := ![4, 1]
  wf := gather_S4x100000_S100000x1_S4x100000_0_1_n_n_1_1_41_wf
def gather_S100000x256_S800000x1_S800000x256_1_0_n_n_0_1_1256 : GatherDims S100000x256 S800000x1 S800000x256 where
  offsetDims := [1]
  collapsedSliceDims := [0]
  operandBatchingDims := []
  startIndicesBatchingDims := []
  startIndexMap := [0]
  indexVectorDim := 1
  sliceSizes := ![1, 256]
  wf := gather_S100000x256_S800000x1_S800000x256_1_0_n_n_0_1_1256_wf
def scatter_S100000x256_S800000x1_S800000x256_1_0_0_1 : ScatterDims S100000x256 S800000x1 S800000x256 where
  updateWindowDims := [1]
  insertedWindowDims := [0]
  scatterDimsToOperandDims := [0]
  indexVectorDim := 1
  wf := scatter_S100000x256_S800000x1_S800000x256_1_0_0_1_wf
def scatter_S100000x4x64_S1_S100000x64_01_1_1_0 : ScatterDims S100000x4x64 S1 S100000x64 where
  updateWindowDims := [0, 1]
  insertedWindowDims := [1]
  scatterDimsToOperandDims := [1]
  indexVectorDim := 0
  wf := scatter_S100000x4x64_S1_S100000x64_01_1_1_0_wf

class Facts : Prop extends Facts₀ where

variable [Facts]
-- ==== Proof.OuterBody.lean ====
/-
  What one grid point of the kernel computes. The point holds a block `a : [4000, 4]` of rank-mask rows already scaled by
  the edge weights, and a block `h : [4000, 64]` of hyperedge-feature rows. It writes the block `[4000, 256]` whose row
  `p` is the outer product of row `p` of `a` with row `p` of `h`, laid out row-major over (rank, feature): column `j`
  holds `a[p, j / 64] * h[p, j % 64]`. The body produces it as four bands of 64 columns; band `r` is column `r` of `a`
  repeated along the band, times `h`. The four bands tile the block, so the block is that one function of `(p, j)`.
  Stated for any float instance: the product is the instance's own, never opened here.
-/
import proofs.«130530_j44117904065324_1_alg».proof.Proof.Gen.KernelIdeal.Frame
import Idealize.ShloMosaic.Lib.ValueIdx
import Idealize.ShloMosaic.Lib.Pipeline.Value

noncomputable section

namespace Cert.KernelIdeal.Outer

open Idealize.ShloMosaic Idealize.ShloMosaic.ValueIdx Cert.KernelIdeal Cert.KernelIdeal.Gen

variable {F : FTy → Type} [FloatOps F]

/-- The outer-product block: entry `(p, j)` is `a[p, j / 64] * h[p, j % 64]`. -/
def outerBlk (a : Vec F S4000x4 .f32) (h : Vec F S4000x64 .f32) : Vec F S4000x256 .f32 :=
  fun y => FloatOps.mulf (a (ix2 (y 0) ⟨(y 1).val / 64, by have h1 : (y 1).val < 256 := (y 1).isLt; omega⟩))
    (h (ix2 (y 0) ⟨(y 1).val % 64, Nat.mod_lt _ (by decide)⟩))

/-- One band. A column `col` that is column `r` of `a`, repeated along 64 lanes and multiplied with `h`, read at row `p`,
    lane `q`, is the outer-product block at the entry `z` in the same row, `64 * r` columns further right. -/
theorem band (a : Vec F S4000x4 .f32) (h : Vec F S4000x64 .f32) (r : Nat) (hr : r < 4)
    (col : Vec F S4000x1 .f32) (hcol : ∀ p : Fin 4000, col (ix2 p (0 : Fin 1)) = a (ix2 p ⟨r, hr⟩))
    (p : Fin 4000) (q : Fin 64) (z : S4000x256.Idx) (hz0 : (z 0).val = p.val) (hz1 : (z 1).val = 64 * r + q.val) :
    mulf (F := F) (φ := .f32) (broadcastTo S4000x64 (shapeCast S4000x1 col shapeCasts_S4000x1_S4000x1) broadcasts_S4000x1_S4000x64)
        (shapeCast S4000x64 h shapeCasts_S4000x64_S4000x64) (ix2 p q) = outerBlk a h z := by
  have hq : q.val < 64 := q.isLt
  show FloatOps.mulf (broadcastTo S4000x64 (shapeCast S4000x1 col shapeCasts_S4000x1_S4000x1) broadcasts_S4000x1_S4000x64 (ix2 p q))
    (shapeCast S4000x64 h shapeCasts_S4000x64_S4000x64 (ix2 p q)) = _
  rw [shapeCast_self, shapeCast_self,
    broadcastTo_apply col broadcasts_S4000x1_S4000x64 (ix2 p q) (ix2 p (0 : Fin 1)) (fun b => match b with
      | ⟨0, _⟩ => by show p.val = if (4000 : Nat) = 1 then 0 else p.val; rw [if_neg (by decide)]
      | ⟨1, _⟩ => by show 0 = if (1 : Nat) = 1 then 0 else q.val; rw [if_pos rfl]),
    hcol p]
  unfold outerBlk
  refine congrArg₂ FloatOps.mulf (congrArg a ?_) (congrArg h ?_)
  · funext d
    match d with
    | ⟨0, _⟩ => exact (Fin.ext hz0).symm
    | ⟨1, _⟩ => exact Fin.ext (by show r = (z 1).val / 64; omega)
  · funext d
    match d with
    | ⟨0, _⟩ => exact (Fin.ext hz0).symm
    | ⟨1, _⟩ => exact Fin.ext (by show q.val = (z 1).val % 64; omega)

/-- A load of the one-column slab at column offset `r` of the 4-column block, read at row `p`, is `a[p, r]`. -/
theorem ld_col (a : Vec F S4000x4 .f32) (off : Fin 2 → Nat) (inb : ∀ b, off b + S4000x1.size b ≤ S4000x4.size b)
    (r : Nat) (hr : r < 4) (h0 : off 0 = 0) (h1 : off 1 = r) (p : Fin 4000) :
    View.ld a (Rect.unit (s := S4000x4) off S4000x1.size inb) (ix2 p (0 : Fin 1)) = a (ix2 p ⟨r, hr⟩) := by
  show a ((Rect.unit (s := S4000x4) off S4000x1.size inb).idx (ix2 p (0 : Fin 1))) = _
  refine congrArg a ?_
  funext d
  match d with
  | ⟨0, _⟩ => exact Fin.ext (by show off 0 + 1 * p.val = p.val; omega)
  | ⟨1, _⟩ => exact Fin.ext (by show off 1 + 1 * 0 = r; omega)

theorem zero_off : (![0, 0] : Fin 2 → Nat) = fun _ => 0 := funext fun b => by fin_cases b <;> rfl

/-- THE BLOCK a grid point leaves in the output's staging buffer is the outer-product block of its two input blocks:
    each of the four stored bands is the restriction of that one function to its 64 columns, and the bands cover. -/
theorem out0_2_eq (a : Vec F S4000x4 .f32) (h : Vec F S4000x64 .f32) :
    out0_2 (F := F) a h = outerBlk a h := by
  funext y
  unfold out0_2
  refine View.canon_apply_of_pieces (outerBlk a h) _ ?_ y (cover0_2 _ _ _ _ y)
  intro pc hpc x
  simp only [List.mem_cons, List.mem_nil_iff, or_false] at hpc
  rcases hpc with rfl | rfl | rfl | rfl
  · obtain ⟨p, q, rfl⟩ : ∃ (p : Fin 4000) (q : Fin 64), x = ix2 p q := ⟨x 0, x 1, eq_ix2 x⟩
    show k0_pay5 (View.ld h r0_0) (View.ld a r0_7) (ix2 p q) = outerBlk a h (r0_8.emb (ix2 p q))
    rw [View.ld_unit_zero (S := S4000x64) zero_off]
    exact band a h 3 (by decide) (View.ld a r0_7) (ld_col a _ _ 3 (by decide) rfl rfl) p q _
      (by show 0 + 1 * p.val = p.val; omega) (by show 192 + 1 * q.val = 64 * 3 + q.val; omega)
  · obtain ⟨p, q, rfl⟩ : ∃ (p : Fin 4000) (q : Fin 64), x = ix2 p q := ⟨x 0, x 1, eq_ix2 x⟩
    show k0_pay4 (View.ld h r0_0) (View.ld a r0_5) (ix2 p q) = outerBlk a h (r0_6.emb (ix2 p q))
    rw [View.ld_unit_zero (S := S4000x64) zero_off]
    exact band a h 2 (by decide) (View.ld a r0_5) (ld_col a _ _ 2 (by decide) rfl rfl) p q _
      (by show 0 + 1 * p.val = p.val; omega) (by show 128 + 1 * q.val = 64 * 2 + q.val; omega)
  · obtain ⟨p, q, rfl⟩ : ∃ (p : Fin 4000) (q : Fin 64), x = ix2 p q := ⟨x 0, x 1, eq_ix2 x⟩
    show k0_pay3 (View.ld h r0_0) (View.ld a r0_3) (ix2 p q) = outerBlk a h (r0_4.emb (ix2 p q))
    rw [View.ld_unit_zero (S := S4000x64) zero_off]
    exact band a h 1 (by decide) (View.ld a r0_3) (ld_col a _ _ 1 (by decide) rfl rfl) p q _
      (by show 0 + 1 * p.val = p.val; omega) (by show 64 + 1 * q.val = 64 * 1 + q.val; omega)
  · obtain ⟨p, q, rfl⟩ : ∃ (p : Fin 4000) (q : Fin 64), x = ix2 p q := ⟨x 0, x 1, eq_ix2 x⟩
    show k0_pay2 (View.ld h r0_0) (View.ld a r0_1) (ix2 p q) = outerBlk a h (r0_2.emb (ix2 p q))
    rw [View.ld_unit_zero (S := S4000x64) zero_off]
    exact band a h 0 (by decide) (View.ld a r0_1) (ld_col a _ _ 0 (by decide) rfl rfl) p q _
      (by show 0 + 1 * p.val = p.val; omega) (by show 0 + 1 * q.val = 64 * 0 + q.val; omega)

end Cert.KernelIdeal.Outer

end
-- ==== Proof.OuterArray.lean ====
/-
  From blocks to the array. The kernel's grid has 200 points; point `t` reads rows `4000 t … 4000 t + 3999` of the two
  staged operands (`A : [800000, 4]`, the gathered rank masks scaled by the edge weights, and `H : [800000, 64]`, the
  gathered hyperedge features) and writes the same rows of the result. Since a point's block is the row-wise outer
  product of its two input blocks, and all three windows move together down the rows, the block a point writes back is
  the restriction to its rows of ONE function of the whole arrays: entry `(k, j)` is `A[k, j / 64] * H[k, j % 64]`. The
  200 row blocks tile the result, so the result array is that function. Stated for any float instance.
-/
import proofs.«130530_j44117904065324_1_alg».proof.Proof.OuterBody

noncomputable section

namespace Cert.KernelIdeal.Outer

open Idealize.ShloMosaic Idealize.ShloMosaic.ValueIdx Idealize.SL.Sem Cert.KernelIdeal Cert.KernelIdeal.Gen
open Idealize.ShloMosaic.Pipeline (Dat)

variable {F : FTy → Type} [FloatOps F]
variable (m : (ℓ : Loc nD τ sig) → Buf (Elt F) ℓ)

/-- The row-wise outer product of the whole operands: entry `(k, j)` is `A[k, j / 64] * H[k, j % 64]`. -/
def outerArr (A : Vec F S800000x4 .f32) (H : Vec F S800000x64 .f32) : Vec F S800000x256 .f32 :=
  fun i => FloatOps.mulf (A (ix2 (i 0) ⟨(i 1).val / 64, by have h1 : (i 1).val < 256 := (i 1).isLt; omega⟩))
    (H (ix2 (i 0) ⟨(i 1).val % 64, Nat.mod_lt _ (by decide)⟩))

/-- The two staged operands as the region finds them. -/
abbrev opA (c : Dev nD) : Vec F S800000x4 .f32 := V m c main_v37
abbrev opH (c : Dev nD) : Vec F S800000x64 .f32 := V m c main_v27

/-- The two input blocks at point `t`, at their literal types. -/
abbrev blkA (c : Dev nD) (t : Fin cfg0.N) : Vec F S4000x4 .f32 := iblk m c 0 t
abbrev blkH (c : Dev nD) (t : Fin cfg0.N) : Vec F S4000x64 .f32 := iblk m c 1 t

/-- The three index maps, decided over the grid: at point `t` all three windows sit on row block `t`, each in its only
    column block. -/
theorem idx_facts : ∀ t : Fin cfg0.N, win0_0.index t (0 : Fin 2) = t.val
    ∧ win0_1.index t (0 : Fin 2) = t.val ∧ win0_2.index t (0 : Fin 2) = t.val
    ∧ win0_0.index t (1 : Fin 2) = 0 ∧ win0_1.index t (1 : Fin 2) = 0 ∧ win0_2.index t (1 : Fin 2) = 0 :=
  (by decide +kernel : ∀ t : Fin grid0.N, _)

/-- Entry `y` of the first input block at point `t` is the operand's entry `k`, `4000 t` rows further down. -/
theorem iblk0_apply (c : Dev nD) (t : Fin cfg0.N) (y : S4000x4.Idx) (k : S800000x4.Idx)
    (hk0 : (k 0).val = 4000 * t.val + (y 0).val) (hk1 : (k 1).val = (y 1).val) :
    blkA m c t y = opA m c k := by
  obtain ⟨e0, e1, e2, e3, e4, e5⟩ := idx_facts t
  show iblk m c 0 t y = _
  unfold iblk
  rw [View.read_apply]
  show V m c main_v37 _ = V m c main_v37 _
  congr 1
  funext a
  apply Fin.ext
  match a with
  | ⟨0, _⟩ => show win0_0.index t (0 : Fin 2) * 4000 + 1 * (y 0).val = (k 0).val; omega
  | ⟨1, _⟩ => show win0_0.index t (1 : Fin 2) * 4 + 1 * (y 1).val = (k 1).val; omega

/-- The same for the second input block. -/
theorem iblk1_apply (c : Dev nD) (t : Fin cfg0.N) (y : S4000x64.Idx) (k : S800000x64.Idx)
    (hk0 : (k 0).val = 4000 * t.val + (y 0).val) (hk1 : (k 1).val = (y 1).val) :
    blkH m c t y = opH m c k := by
  obtain ⟨e0, e1, e2, e3, e4, e5⟩ := idx_facts t
  show iblk m c 1 t y = _
  unfold iblk
  rw [View.read_apply]
  show V m c main_v27 _ = V m c main_v27 _
  congr 1
  funext a
  apply Fin.ext
  match a with
  | ⟨0, _⟩ => show win0_1.index t (0 : Fin 2) * 4000 + 1 * (y 0).val = (k 0).val; omega
  | ⟨1, _⟩ => show win0_1.index t (1 : Fin 2) * 64 + 1 * (y 1).val = (k 1).val; omega

/-- What the body leaves in the output's staging buffer at point `t`: the outer-product block of the two input blocks. -/
theorem after_eq (c : Dev nD) (t : Fin cfg0.N) :
    (dats m 0 c).after 2 t = outerBlk (blkA m c t) (blkH m c t) :=
  (after0_2 m c t).trans (out0_2_eq (blkA m c t) (blkH m c t))

/-- The outer-product block of point `t`'s input blocks is row block `t` of the row-wise outer product of the whole operands. -/
theorem cut_outer (c : Dev nD) (t : Fin cfg0.N) :
    (cfg0.win 2).cut (grid0.coords t) (outerBlk (blkA m c t) (blkH m c t))
      = ((cfg0.win 2).blk t).view.read (Elt F) (outerArr (opA m c) (opH m c)) := by
  obtain ⟨e0, e1, e2, e3, e4, e5⟩ := idx_facts t
  funext j
  have hj0 : (j 0).val < 4000 := (j 0).isLt
  have hj1 : (j 1).val < 256 := (j 1).isLt
  show outerBlk (blkA m c t) (blkH m c t) j = outerArr (opA m c) (opH m c) (((cfg0.win 2).blk t).view.emb j)
  unfold outerBlk outerArr
  refine congrArg₂ FloatOps.mulf (iblk0_apply m c t _ _ ?_ ?_) (iblk1_apply m c t _ _ ?_ ?_)
  · show win0_2.index t (0 : Fin 2) * 4000 + 1 * (j 0).val = 4000 * t.val + (j 0).val; omega
  · show (win0_2.index t (1 : Fin 2) * 256 + 1 * (j 1).val) / 64 = (j 1).val / 64; omega
  · show win0_2.index t (0 : Fin 2) * 4000 + 1 * (j 0).val = 4000 * t.val + (j 0).val; omega
  · show (win0_2.index t (1 : Fin 2) * 256 + 1 * (j 1).val) % 64 = (j 1).val % 64; omega

/-- WHAT POINT `t` WRITES BACK is its row block of the row-wise outer product of the whole operands. -/
theorem flushed_eq (c : Dev nD) (t : Fin cfg0.N) :
    (dats m 0 c).flushed 2 t = ((cfg0.win 2).blk t).view.read (Elt F) (outerArr (opA m c) (opH m c)) :=
  (congrArg ((cfg0.win 2).cut (grid0.coords t)) (after_eq m c t)).trans (cut_outer m c t)

/-- An index of the result array is in point `t`'s block iff each coordinate is in the block's range on its axis. -/
theorem mem_blk (t : Fin cfg0.N) (i : S800000x256.Idx) :
    i ∈ ((cfg0.win 2).blk t).view.set ↔ ∀ a : Fin 2, win0_2.index t a * S4000x256.size a ≤ (i a).val
      ∧ (i a).val < win0_2.index t a * S4000x256.size a + S4000x256.size a := by
  show i ∈ ((View.whole main_v38).slice (win0_2.rect t)).set ↔ _
  rw [View.set_slice_whole, Rect.mem_set_unit]
  exact Iff.rfl

/-- THE RESULT ARRAY after the run is the row-wise outer product of the two staged operands: row `k` lies in the block
    of point `k / 4000`, every point writes its block back, and what it writes is that function's block. -/
theorem final (c : Dev nD) : (dats m 0 c).arrAt 2 cfg0.N = outerArr (opA m c) (opH m c) :=
  (dats m 0 c).arrAt_eq_of_cover 2 (outerArr (opA m c) (opH m c)) (fun t _ => flushed_eq m c t) fun i => by
    have hi0 : (i 0).val < 800000 := (i 0).isLt
    have hi1 : (i 1).val < 256 := (i 1).isLt
    have hN : cfg0.N = 200 := N_0
    let t : Fin cfg0.N := ⟨(i 0).val / 4000, by rw [hN]; omega⟩
    have ht : t.val = (i 0).val / 4000 := rfl
    obtain ⟨e0, e1, e2, e3, e4, e5⟩ := idx_facts t
    refine ⟨t, flush0_2 t, ?_⟩
    rw [mem_blk]
    intro a
    match a with
    | ⟨0, _⟩ =>
      show win0_2.index t (0 : Fin 2) * 4000 ≤ (i 0).val ∧ (i 0).val < win0_2.index t (0 : Fin 2) * 4000 + 4000
      omega
    | ⟨1, _⟩ =>
      show win0_2.index t (1 : Fin 2) * 256 ≤ (i 1).val ∧ (i 1).val < win0_2.index t (1 : Fin 2) * 256 + 256
      omega

end Cert.KernelIdeal.Outer

end
-- ==== Proof.KernelTerms.lean ====
/-
  The kernel program's host side as named terms of the argument arrays (`x0 = x [100000, 64]`, `x1 = rank_masks
  [4, 100000]`, `x2 = vals [800000]`, `x3 = he_idxs`, `x4 = rows`, `x5 = cols`).
  Before the kernel: `cols` with negative entries wrapped by the table length, as a column of start indices; the
  hyperedge features (rows of `x` gathered at the wrapped `rows`, scaled by `vals`, summed into their hyperedge by
  `cols`); the rank masks gathered at the wrapped `he_idxs` and transposed to `[100000, 4]`; and the kernel's two
  operands, both gathered row-wise at the wrapped `cols`: the rank-mask rows times `vals`, and the feature rows.
  After the kernel: the per-edge contributions `U : [800000, 256]` are summed into their node by `rows`, the result is
  read as `[100000, 4, 64]`, and rank slot 3 is overwritten with `x`. That tail is one definition: it is the same on
  the reference's side, and the proof never opens it.
-/
import proofs.«130530_j44117904065324_1_alg».proof.KernelIdeal
import proofs.«130530_j44117904065324_1_alg».proof.Proof.Gen.KernelIdeal

noncomputable section

namespace Cert.KernelIdeal.Outer

open Idealize.ShloMosaic Cert.KernelIdeal Cert.KernelIdeal.Gen

variable {F : FTy → Type} [FloatOps F]

/-- `cols`, a negative entry wrapped by adding the table length 100000, as the `[800000, 1]` column of start indices. -/
def colsCol (x5 : (⟨S800000, .i32⟩ : BufTy).Contents (Elt F)) : (⟨S800000x1, .i32⟩ : BufTy).Contents (Elt F) :=
  broadcastInDim S800000x1 ![0] bcast_S800000_S800000x1_0
    (select (cmpi .slt x5 (broadcastInDim S800000 ![] bcast_S_S800000 (constantI S_ 32 0#32)))
      (addi x5 (broadcastInDim S800000 ![] bcast_S_S800000 (constantI S_ 32 100000#32))) x5)

/-- The hyperedge features `[100000, 64]`: `x[rows] * vals` summed by `cols`. -/
def heFeat (x0 : (⟨S100000x64, .f32⟩ : BufTy).Contents (Elt F)) (x2 : (⟨S800000, .f32⟩ : BufTy).Contents (Elt F))
    (x4 x5 : (⟨S800000, .i32⟩ : BufTy).Contents (Elt F)) : (⟨S100000x64, .f32⟩ : BufTy).Contents (Elt F) :=
  Host.scatterAdd scatter_S100000x64_S800000x1_S800000x64_1_0_0_1
    (broadcastInDim S100000x64 ![] bcast_S_S100000x64 (constant S_ .f32 0x00000000#32))
    (broadcastInDim S800000x1 ![0] bcast_S800000_S800000x1_0 x5)
    (mulf (Host.gather gather_S100000x64_S800000x1_S800000x64_1_0_n_n_0_1_164 x0
        (broadcastInDim S800000x1 ![0] bcast_S800000_S800000x1_0
          (select (cmpi .slt x4 (broadcastInDim S800000 ![] bcast_S_S800000 (constantI S_ 32 0#32)))
            (addi x4 (broadcastInDim S800000 ![] bcast_S_S800000 (constantI S_ 32 100000#32))) x4)))
      (broadcastInDim S800000x64 ![0, 1] bcast_S800000x1_S800000x64_0_1
        (broadcastInDim S800000x1 ![0] bcast_S800000_S800000x1_0 x2)))

/-- The rank masks gathered at the wrapped `he_idxs`, transposed: `[100000, 4]`. -/
def rankT (x1 : (⟨S4x100000, .f32⟩ : BufTy).Contents (Elt F)) (x3 : (⟨S100000, .i32⟩ : BufTy).Contents (Elt F)) :
    (⟨S100000x4, .f32⟩ : BufTy).Contents (Elt F) :=
  transpose S100000x4 [1, 0]
    (Host.gather gather_S4x100000_S100000x1_S4x100000_0_1_n_n_1_1_41 x1
      (broadcastInDim S100000x1 ![0] bcast_S100000_S100000x1_0
        (select (cmpi .slt x3 (broadcastInDim S100000 ![] bcast_S_S100000 (constantI S_ 32 0#32)))
          (addi x3 (broadcastInDim S100000 ![] bcast_S_S100000 (constantI S_ 32 100000#32))) x3)))
    transposes_S4x100000_S100000x4_1_0

/-- The kernel's first operand `[800000, 4]`: the rank-mask rows gathered at the wrapped `cols`, times `vals`. -/
def opAOf (x1 : (⟨S4x100000, .f32⟩ : BufTy).Contents (Elt F)) (x2 : (⟨S800000, .f32⟩ : BufTy).Contents (Elt F))
    (x3 : (⟨S100000, .i32⟩ : BufTy).Contents (Elt F)) (x5 : (⟨S800000, .i32⟩ : BufTy).Contents (Elt F)) :
    (⟨S800000x4, .f32⟩ : BufTy).Contents (Elt F) :=
  mulf (Host.gather gather_S100000x4_S800000x1_S800000x4_1_0_n_n_0_1_14 (rankT x1 x3) (colsCol x5))
    (broadcastInDim S800000x4 ![0, 1] bcast_S800000x1_S800000x4_0_1
      (broadcastInDim S800000x1 ![0] bcast_S800000_S800000x1_0 x2))

/-- The kernel's second operand `[800000, 64]`: the hyperedge-feature rows gathered at the wrapped `cols`. -/
def opHOf (x0 : (⟨S100000x64, .f32⟩ : BufTy).Contents (Elt F)) (x2 : (⟨S800000, .f32⟩ : BufTy).Contents (Elt F))
    (x4 x5 : (⟨S800000, .i32⟩ : BufTy).Contents (Elt F)) : (⟨S800000x64, .f32⟩ : BufTy).Contents (Elt F) :=
  Host.gather gather_S100000x64_S800000x1_S800000x64_1_0_n_n_0_1_164 (heFeat x0 x2 x4 x5) (colsCol x5)

/-- The tail: the contributions `U` summed into their node by `rows`, read as `[100000, 4, 64]`, rank slot 3 set to `x`. -/
def tailOf (x0 : (⟨S100000x64, .f32⟩ : BufTy).Contents (Elt F)) (x4 : (⟨S800000, .i32⟩ : BufTy).Contents (Elt F))
    (U : (⟨S800000x256, .f32⟩ : BufTy).Contents (Elt F)) : (⟨S100000x4x64, .f32⟩ : BufTy).Contents (Elt F) :=
  Host.scatter scatter_S100000x4x64_S1_S100000x64_01_1_1_0 (fun _ b => b)
    (shapeCast S100000x4x64
      (Host.scatterAdd scatter_S100000x256_S800000x1_S800000x256_1_0_0_1
        (broadcastInDim S100000x256 ![] bcast_S_S100000x256 (constant S_ .f32 0x00000000#32))
        (broadcastInDim S800000x1 ![0] bcast_S800000_S800000x1_0 x4) U)
      shapeCasts_S100000x256_S100000x4x64)
    (broadcastInDim S1 ![] bcast_S_S1 (constantI S_ 32 3#32)) x0

end Cert.KernelIdeal.Outer

end
-- ==== Proof.OperandA.lean ====
/-
  The kernel's first operand as the region finds it: the host operations before the kernel, composed, leave in it the
  rank-mask rows gathered at the wrapped `cols` and scaled by `vals`, as a term of the argument arrays.
-/
import proofs.«130530_j44117904065324_1_alg».proof.Proof.OuterArray
import proofs.«130530_j44117904065324_1_alg».proof.Proof.KernelTerms
import Idealize.ShloMosaic.Lib.StableHlo.Run

noncomputable section

namespace Cert.KernelIdeal.Outer

open Idealize.ShloMosaic Idealize.SL.Sem Cert.KernelIdeal Cert.KernelIdeal.Gen
open Idealize.ShloMosaic.StableHlo Idealize.ShloMosaic.TcCoe

variable {F : FTy → Type} [FloatOps F]
variable (m : (ℓ : Loc nD τ sig) → Buf (Elt F) ℓ)

set_option maxHeartbeats 2000000 in
set_option maxRecDepth 8192 in
/-- The first staged operand is `opAOf` of the arguments. -/
theorem opA_eq (c : Dev nD) :
    opA m c = opAOf (m ((c : Thread nD τ).loc main_arg1)) (m ((c : Thread nD τ).loc main_arg2))
      (m ((c : Thread nD τ).loc main_arg3)) (m ((c : Thread nD τ).loc main_arg5)) := by
  dsimp only [opA, V, V0]
  simp only [List.flatten_cons, List.flatten_nil, List.append_nil]
  after_results <;> rfl

end Cert.KernelIdeal.Outer

end
-- ==== Proof.OperandH.lean ====
/-
  The kernel's second operand as the region finds it: the host operations before the kernel, composed, leave in it the
  hyperedge-feature rows gathered at the wrapped `cols`, as a term of the argument arrays.
-/
import proofs.«130530_j44117904065324_1_alg».proof.Proof.OuterArray
import proofs.«130530_j44117904065324_1_alg».proof.Proof.KernelTerms
import Idealize.ShloMosaic.Lib.StableHlo.Run

noncomputable section

namespace Cert.KernelIdeal.Outer

open Idealize.ShloMosaic Idealize.SL.Sem Cert.KernelIdeal Cert.KernelIdeal.Gen
open Idealize.ShloMosaic.StableHlo Idealize.ShloMosaic.TcCoe

variable {F : FTy → Type} [FloatOps F]
variable (m : (ℓ : Loc nD τ sig) → Buf (Elt F) ℓ)

set_option maxHeartbeats 2000000 in
set_option maxRecDepth 8192 in
/-- The second staged operand is `opHOf` of the arguments. -/
theorem opH_eq (c : Dev nD) :
    opH m c = opHOf (m ((c : Thread nD τ).loc main_arg0)) (m ((c : Thread nD τ).loc main_arg2))
      (m ((c : Thread nD τ).loc main_arg4)) (m ((c : Thread nD τ).loc main_arg5)) := by
  dsimp only [opH, V, V0]
  simp only [List.flatten_cons, List.flatten_nil, List.append_nil]
  after_results <;> rfl

end Cert.KernelIdeal.Outer

end
-- ==== Proof.KernelRun.lean ====
/-
  The kernel program's run, read. After the kernel the result array holds the row-wise outer product of the two staged
  operands; the host operations after it sum those contributions into their node by `rows`, read the sums as
  `[100000, 4, 64]` and overwrite rank slot 3 with `x`. So @main's result is the tail of the outer product of the two
  operand terms, as a term of the argument arrays, and the arguments end as launched. Stated for any float instance.
-/
import proofs.«130530_j44117904065324_1_alg».proof.Proof.OperandA
import proofs.«130530_j44117904065324_1_alg».proof.Proof.OperandH

noncomputable section

namespace Cert.KernelIdeal.Outer

open Idealize.ShloMosaic Idealize.SL.Sem Cert.KernelIdeal Cert.KernelIdeal.Gen
open Idealize.ShloMosaic.StableHlo Idealize.ShloMosaic.TcCoe

variable {F : FTy → Type} [FloatOps F]
variable (m : (ℓ : Loc nD τ sig) → Buf (Elt F) ℓ) (ρ : Dev nD → PrngReg)

/-- The per-edge contributions as a term of the arguments: the row-wise outer product of the two operand terms. -/
abbrev contribOf (c : Dev nD) : (⟨S800000x256, .f32⟩ : BufTy).Contents (Elt F) :=
  outerArr (opAOf (m ((c : Thread nD τ).loc main_arg1)) (m ((c : Thread nD τ).loc main_arg2))
      (m ((c : Thread nD τ).loc main_arg3)) (m ((c : Thread nD τ).loc main_arg5)))
    (opHOf (m ((c : Thread nD τ).loc main_arg0)) (m ((c : Thread nD τ).loc main_arg2))
      (m ((c : Thread nD τ).loc main_arg4)) (m ((c : Thread nD τ).loc main_arg5)))

/-- The kernel's result array after the run, as the host operations after it find it. -/
theorem arr_v38 (c : Dev nD) :
    Pipeline.withArrays (cfgs 0).spec c (V0 m c) (fun w => (dats m 0 c).arrAt w (cfgs 0).N) (Proc.devRef .tc main_v38)
      = contribOf m c :=
  (Pipeline.withArrays_arr spec0 launch0.win.arr_inj c _ _ 2).trans
    ((final m c).trans (congrArg₂ outerArr (opA_eq m c) (opH_eq m c)))

/-- `rows` and `x`, which no window stages and no host operation writes, are there as launched. -/
theorem arr_arg4 (c : Dev nD) :
    Pipeline.withArrays (cfgs 0).spec c (V0 m c) (fun w => (dats m 0 c).arrAt w (cfgs 0).N) (Proc.devRef .tc main_arg4)
      = m ((c : Thread nD τ).loc main_arg4) :=
  (Pipeline.withArrays_of_ne _ c (V0 m c) _ main_arg4 (by exact (by decide : ∀ w, Pipeline.arrRef spec0 w ≠ main_arg4))).trans
    (V_main_arg4 m c)
theorem arr_arg0 (c : Dev nD) :
    Pipeline.withArrays (cfgs 0).spec c (V0 m c) (fun w => (dats m 0 c).arrAt w (cfgs 0).N) (Proc.devRef .tc main_arg0)
      = m ((c : Thread nD τ).loc main_arg0) :=
  (Pipeline.withArrays_of_ne _ c (V0 m c) _ main_arg0 (by exact (by decide : ∀ w, Pipeline.arrRef spec0 w ≠ main_arg0))).trans
    (V_main_arg0 m c)

/-- @MAIN'S RESULT after the host operations that follow the kernel: the tail of the contributions. -/
theorem tail_eq (c : Dev nD) :
    Pipeline.afterTail₀ cfgs (dats m) 0 (V0 m) [hostOps1] c main_v44
      = tailOf (m ((c : Thread nD τ).loc main_arg0)) (m ((c : Thread nD τ).loc main_arg4)) (contribOf m c) := by
  unfold Pipeline.afterTail₀
  show StableHlo.after hostOps1 _ (Proc.devRef .tc main_v44) = _
  after_results
  rw [arr_v38, arr_arg4, arr_arg0]
  rfl

/-- THE RUN: every weakly fair execution of the kernel program terminates with its result at the tail of the
    contributions and its arguments unchanged. -/
theorem run : θ_run defs (onTc (τ := τ) (main (F := F))) ⟨m, fun _ => 0, ρ⟩ fun r => ∀ c : Dev nD,
      r.2.mem ((c.tc : Thread nD τ).loc main_v44)
        = tailOf (m ((c : Thread nD τ).loc main_arg0)) (m ((c : Thread nD τ).loc main_arg4)) (contribOf m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c =>
    ⟨((h c).2 main_v44 (Pipeline.mem_restRefs_of main_v44 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c)⟩)
    (run_main m ρ)

end Cert.KernelIdeal.Outer

end
-- ==== Proof.LibGatherRows.lean ====
/-
  Row gather read at an element. jnp's `table[idx]` over a rank-2 table `[N, L]` with an integer vector `idx : [n]`
  lowers to a `stablehlo.gather` whose start indices are the `[n, 1]` column of positions: operand axis 0 is collapsed
  and start-indexed, operand axis 1 is the one offset axis (a whole row of length `L` is the slice), and the index
  vector sits on axis 1 of the start indices. Result element `(p, q)` is therefore the table at row
  "start index of position `p`, read signed and clamped into `[0, N - 1]`" and column `q`.
-/
import Idealize.ShloMosaic.Lib.ValueIdx
import Idealize.ShloMosaic.Lib.StableHlo.Predicate

namespace Idealize.ShloMosaic.GatherRows

open Idealize.ShloMosaic Idealize.ShloMosaic.ValueIdx Idealize.ShloMosaic.StableHlo.Predicate

/-- THE ROW GATHER at `(p, q)`: the operand at row `clamp (idx[p, 0])`, column `q`. The hypotheses are the printed
    dimension numbers, each closed by `rfl` at a program's record. -/
theorem gather_rows {α : Type} {N L n w : Nat} (d : GatherDims ⟨2, ![N, L]⟩ ⟨2, ![n, 1]⟩ ⟨2, ![n, L]⟩)
    (hoff : d.offsetDims = [1]) (hcoll : d.collapsedSliceDims = [0]) (hob : d.operandBatchingDims = [])
    (hsim : d.startIndexMap = [0]) (hivd : d.indexVectorDim = 1)
    (x : (⟨2, ![N, L]⟩ : Shape).Idx → α) (idx : IVec ⟨2, ![n, 1]⟩ w) (p : Fin n) (q : Fin L) (hN : 0 < N) :
    Host.gather d x idx (ix2 p q) = x (ix2 ⟨min (idx (ixP p)).toInt.toNat (N - 1), by omega⟩ q) := by
  unfold Host.gather
  congr 1
  funext a
  apply Fin.ext
  have hb : ∀ a : Fin 2, a ∉ d.operandBatchingDims := fun a => by rw [hob]; exact List.not_mem_nil
  match a with
  | ⟨0, _⟩ =>
    -- the collapsed, start-indexed axis: the clamped start index, no batch or offset coordinate
    have hk : (0 : Fin 2) ∉ d.sKept := by rw [GatherDims.mem_sKept, hcoll]; simp
    have hm : (0 : Fin 2) ∈ d.startIndexMap := by rw [hsim]; exact List.mem_singleton.mpr rfl
    have hsl : d.sliceSizes 0 = 1 := d.slice_collapsed 0 (by rw [hcoll]; exact List.mem_singleton.mpr rfl)
    show d.start (ix2 p q) idx 0 + d.batchCoord (ix2 p q) 0 + d.offCoord (ix2 p q) 0 = _
    rw [GatherDims.batchCoord_eq_zero _ _ _ (hb 0), GatherDims.offCoord_eq_zero _ _ _ hk]
    simp only [Nat.add_zero, GatherDims.start, dif_pos hm]
    show min (idx _).toInt.toNat (N - d.sliceSizes 0) = min (idx (ixP p)).toInt.toNat (N - 1)
    rw [hsl]
    congr 3
    congr 1
    funext b
    match b with
    | ⟨0, _⟩ =>
      unfold GatherDims.siIdx
      rw [dif_neg (by rw [hivd]; simp)]
      unfold GatherDims.siCoord
      apply Fin.ext
      simp only [Fin.val_cast]
      -- the result's batch axes are the non-offset ones: axis 0 only
      have hbd : d.batchDims = [0] := by
        show (⟨2, ![n, L]⟩ : Shape).kept d.offsetDims = [0]
        rw [hoff]; rfl
      have hsk : d.siKept = [0] := by
        show (List.finRange 2).filter (fun b : Fin 2 => b.val ≠ d.indexVectorDim) = [0]
        rw [hivd]; decide
      have e : ∀ (k : Nat) (hk : k < d.batchDims.length), ((ix2 p q : (⟨2, ![n, L]⟩ : Shape).Idx) (d.batchDims[k]'hk)).val = p.val := by
        intro k hk
        have hk0 : k = 0 := by rw [hbd] at hk; simpa using hk
        subst hk0
        have : d.batchDims[0]'hk = (0 : Fin 2) := by simp [hbd]
        rw [this]
      exact e _ _
    | ⟨1, _⟩ =>
      unfold GatherDims.siIdx
      rw [dif_pos (by rw [hivd])]
      apply Fin.ext
      show List.idxOf (0 : Fin 2) d.startIndexMap = 0
      rw [hsim]; simp
  | ⟨1, _⟩ =>
    -- the offset axis: no start index (axis 1 is not start-indexed), the result's column
    have hk : (1 : Fin 2) ∈ d.sKept := by rw [GatherDims.mem_sKept, hcoll, hob]; simp
    have hm : (1 : Fin 2) ∉ d.startIndexMap := by rw [hsim]; simp
    show d.start (ix2 p q) idx 1 + d.batchCoord (ix2 p q) 1 + d.offCoord (ix2 p q) 1 = q.val
    rw [GatherDims.batchCoord_eq_zero _ _ _ (hb 1)]
    simp only [GatherDims.start, dif_neg hm, Nat.add_zero, Nat.zero_add, GatherDims.offCoord, dif_pos hk]
    have hsk : d.sKept = [1] := by
      show (⟨2, ![N, L]⟩ : Shape).kept (d.collapsedSliceDims ++ d.operandBatchingDims) = [1]
      rw [hcoll, hob]; rfl
    have e : ∀ (k : Nat) (hk : k < d.offsetDims.length), ((ix2 p q : (⟨2, ![n, L]⟩ : Shape).Idx) (d.offsetDims[k]'hk)).val = q.val := by
      intro k hk
      have hk0 : k = 0 := by rw [hoff] at hk; simpa using hk
      subst hk0
      have : d.offsetDims[0]'hk = (1 : Fin 2) := by simp [hoff]
      rw [this]
    exact e _ _

end Idealize.ShloMosaic.GatherRows
-- ==== Proof.Bridge.lean ====
/-
  The two programs' per-edge contributions are one array. For edge `k` let `e` be its hyperedge: `cols[k]`, a negative
  entry wrapped by the table length, then clamped into `[0, 99999]` (what a row gather does with a start index). With
  `T = [100000, 4]` the transposed, gathered rank masks and `Hf = [100000, 64]` the hyperedge features — the same two
  arrays in both programs — the contribution of edge `k` at column `j = 64 r + f` is
    kernel:     `(T[e, r] * vals[k]) * Hf[e, f]`   (the rank-mask row is scaled first, then the outer product is formed),
    reference:  `(T[e, r] * Hf[e, f]) * vals[k]`   (the outer product `[100000, 4, 64]` is formed and flattened first,
                                                   its row gathered, then scaled).
  Multiplication of extended reals is commutative and associative, so the two agree, infinite entries included. After
  that both programs apply the same tail to the contributions.
-/
import proofs.«130530_j44117904065324_1_alg».proof.Proof.LibGatherRows
import proofs.«130530_j44117904065324_1_alg».proof.Proof.KernelTerms
import proofs.«130530_j44117904065324_1_alg».proof.Proof.OuterArray
import proofs.«130530_j44117904065324_1_alg».proof.Proof.Gen.ReferenceIdeal.Read
import Idealize.ShloMosaic.Lib.ValueIdx
import Idealize.ShloMosaic.Lib.Pipeline.Value
import Idealize.ShloMosaic.PureOps.Ideal

noncomputable section

namespace Cert.Bridge

open Idealize.ShloMosaic Idealize.ShloMosaic.ValueIdx Idealize.ShloMosaic.StableHlo.Predicate
open Cert.KernelIdeal.Outer
open Cert.ReferenceIdeal (gather_S100000x256_S800000x1_S800000x256_1_0_n_n_0_1_1256)

namespace K
export Cert.KernelIdeal (S100000x4 S100000x64 S800000 S800000x1 S800000x4 S800000x64 S800000x256 S100000x4x64)
end K

variable {F : FTy → Type} [FloatOps F]

/-- The row of a 100000-row table that edge `k` reads through the start-index column `C`: its entry read signed and
    clamped into the table. -/
abbrev rowOf (C : IVec (⟨2, ![800000, 1]⟩ : Shape) 32) (k : Fin 800000) : Fin 100000 :=
  ⟨min (C (ixP k)).toInt.toNat (100000 - 1), by omega⟩

/-- `vals`, kept as a column and repeated along `m` lanes, read at `(k, q)`, is `vals[k]`. -/
theorem vals_bcast {m : Nat} (hm : m ≠ 1)
    (h₁ : (⟨1, ![800000]⟩ : Shape).BroadcastsInDim ⟨2, ![800000, 1]⟩ ![0])
    (h₂ : (⟨2, ![800000, 1]⟩ : Shape).BroadcastsInDim ⟨2, ![800000, m]⟩ ![0, 1])
    {α : Type} (v : (⟨1, ![800000]⟩ : Shape).Idx → α) (k : Fin 800000) (q : Fin m) :
    broadcastInDim ⟨2, ![800000, m]⟩ ![0, 1] h₂ (broadcastInDim ⟨2, ![800000, 1]⟩ ![0] h₁ v) (ix2 k q) = v (ix1 k) := by
  rw [broadcastInDim_apply ![0, 1] h₂ _ (ix2 k q) (ixP k) (fun a => match a with
      | ⟨0, _⟩ => by show k.val = if (800000 : Nat) = 1 then 0 else k.val; rw [if_neg (by decide)]
      | ⟨1, _⟩ => by show 0 = if (1 : Nat) = 1 then 0 else q.val; rw [if_pos rfl]),
    broadcastInDim_apply ![0] h₁ v (ixP k) (ix1 k) (fun a => match a with
      | ⟨0, _⟩ => by show k.val = if (800000 : Nat) = 1 then 0 else k.val; rw [if_neg (by decide)])]

/-- THE KERNEL'S CONTRIBUTION at `(k, j)`, for any tables `T`, `Hf` and start-index column `C`: the rank-mask entry of the
    edge's hyperedge scaled by `vals[k]`, times the feature entry. -/
theorem kernel_entry (T : (⟨K.S100000x4, .f32⟩ : BufTy).Contents (Elt F)) (Hf : (⟨K.S100000x64, .f32⟩ : BufTy).Contents (Elt F))
    (C : (⟨K.S800000x1, .i32⟩ : BufTy).Contents (Elt F)) (x2 : (⟨K.S800000, .f32⟩ : BufTy).Contents (Elt F))
    (k : Fin 800000) (j : Fin 256) :
    outerArr (F := F)
        (mulf (Host.gather Cert.KernelIdeal.gather_S100000x4_S800000x1_S800000x4_1_0_n_n_0_1_14 T C)
          (broadcastInDim K.S800000x4 ![0, 1] Cert.KernelIdeal.Gen.bcast_S800000x1_S800000x4_0_1
            (broadcastInDim K.S800000x1 ![0] Cert.KernelIdeal.Gen.bcast_S800000_S800000x1_0 x2)))
        (Host.gather Cert.KernelIdeal.gather_S100000x64_S800000x1_S800000x64_1_0_n_n_0_1_164 Hf C) (ix2 k j)
      = FloatOps.mulf
          (FloatOps.mulf (T (ix2 (rowOf C k) ⟨j.val / 64, by have := j.isLt; omega⟩)) (x2 (ix1 k)))
          (Hf (ix2 (rowOf C k) ⟨j.val % 64, Nat.mod_lt _ (by decide)⟩)) := by
  unfold outerArr
  show FloatOps.mulf
      (FloatOps.mulf
        (Host.gather Cert.KernelIdeal.gather_S100000x4_S800000x1_S800000x4_1_0_n_n_0_1_14 T C
          (ix2 k ⟨j.val / 64, by have := j.isLt; omega⟩))
        (broadcastInDim K.S800000x4 ![0, 1] Cert.KernelIdeal.Gen.bcast_S800000x1_S800000x4_0_1
          (broadcastInDim K.S800000x1 ![0] Cert.KernelIdeal.Gen.bcast_S800000_S800000x1_0 x2)
          (ix2 k ⟨j.val / 64, by have := j.isLt; omega⟩)))
      (Host.gather Cert.KernelIdeal.gather_S100000x64_S800000x1_S800000x64_1_0_n_n_0_1_164 Hf C
        (ix2 k ⟨j.val % 64, Nat.mod_lt _ (by decide)⟩)) = _
  rw [GatherRows.gather_rows _ rfl rfl rfl rfl rfl T C k _ (by decide),
    GatherRows.gather_rows _ rfl rfl rfl rfl rfl Hf C k _ (by decide),
    vals_bcast (by decide)]

/-! ## The reference's side -/

open Cert.ReferenceIdeal

/-- The flattened outer product `[100000, 256]` read at row `e`, column `j`, takes its rank-mask factor at `(e, j / 64)` … -/
theorem idx_rank (e : Fin 100000) (j : Fin 256) :
    Read.idx_main_v21 (Read.idx_main_v23 (Read.idx_main_v26 (ix2 e j))) = ix2 e ⟨j.val / 64, by have := j.isLt; omega⟩ := by
  have hj := j.isLt
  have he := e.isLt
  funext a
  apply Fin.ext
  match a with
  | ⟨0, _⟩ => show (e.val * 256 + j.val) / 256 = e.val; omega
  | ⟨1, _⟩ => show (e.val * 256 + j.val) / 64 % 4 = j.val / 64; omega

/-- … and its feature factor at `(e, j % 64)`. -/
theorem idx_feat (e : Fin 100000) (j : Fin 256) :
    Read.idx_main_v22 (Read.idx_main_v24 (Read.idx_main_v26 (ix2 e j))) = ix2 e ⟨j.val % 64, Nat.mod_lt _ (by decide)⟩ := by
  have hj := j.isLt
  have he := e.isLt
  funext a
  apply Fin.ext
  match a with
  | ⟨0, _⟩ => show (e.val * 256 + j.val) / 256 = e.val; omega
  | ⟨1, _⟩ => show (e.val * 256 + j.val) % 64 = j.val % 64; omega

/-- `vals` repeated along the 256 columns is read at its edge. -/
theorem idx_vals (k : Fin 800000) (j : Fin 256) : Read.idx_main_v34 (Read.idx_main_v35 (ix2 k j)) = ix1 k := by
  funext a
  match a with
  | ⟨0, _⟩ => rfl

/-- THE REFERENCE'S CONTRIBUTION at `(k, j)`: the outer-product entry of the edge's hyperedge, scaled by `vals[k]`. -/
theorem ref_entry (x0 : (⟨K.S100000x64, .f32⟩ : BufTy).Contents (Elt F)) (x1 : (⟨Cert.KernelIdeal.S4x100000, .f32⟩ : BufTy).Contents (Elt F))
    (x2 : (⟨K.S800000, .f32⟩ : BufTy).Contents (Elt F)) (x3 : (⟨Cert.KernelIdeal.S100000, .i32⟩ : BufTy).Contents (Elt F))
    (x4 x5 : (⟨K.S800000, .i32⟩ : BufTy).Contents (Elt F)) (k : Fin 800000) (j : Fin 256) :
    Read.val_main_v36 (F := F) x0 x1 x2 x3 x4 x5 (ix2 k j)
      = FloatOps.mulf
          (FloatOps.mulf (Read.val_main_v20 (F := F) x1 x3 (ix2 (rowOf (Read.val_main_v32 (F := F) x5) k) ⟨j.val / 64, by have := j.isLt; omega⟩))
            (Read.val_main_v12 (F := F) x0 x2 x4 x5 (ix2 (rowOf (Read.val_main_v32 (F := F) x5) k) ⟨j.val % 64, Nat.mod_lt _ (by decide)⟩)))
          (x2 (ix1 k)) := by
  rw [Read.val_main_v36_apply]
  unfold Read.val_main_v33
  rw [GatherRows.gather_rows _ rfl rfl rfl rfl rfl _ _ k j (by decide),
    Read.val_main_v26_apply, Read.val_main_v25_apply, Read.val_main_v23_apply, Read.val_main_v21_apply,
    Read.val_main_v24_apply, Read.val_main_v22_apply, Read.val_main_v35_apply, Read.val_main_v34_apply,
    idx_rank, idx_feat, idx_vals]

/-- The reference's result is the common tail applied to its contributions. -/
theorem ref_result (x0 : (⟨K.S100000x64, .f32⟩ : BufTy).Contents (Elt F)) (x1 : (⟨Cert.KernelIdeal.S4x100000, .f32⟩ : BufTy).Contents (Elt F))
    (x2 : (⟨K.S800000, .f32⟩ : BufTy).Contents (Elt F)) (x3 : (⟨Cert.KernelIdeal.S100000, .i32⟩ : BufTy).Contents (Elt F))
    (x4 x5 : (⟨K.S800000, .i32⟩ : BufTy).Contents (Elt F)) :
    Read.val_main_v42 (F := F) x0 x1 x2 x3 x4 x5 = tailOf x0 x4 (Read.val_main_v36 (F := F) x0 x1 x2 x3 x4 x5) := rfl

/-! ## The two sides meet -/

/-- THE CONTRIBUTIONS AGREE on the extended reals: `(T · v) · Hf = (T · Hf) · v`, entry by entry. -/
theorem contributions_eq (x0 : (⟨K.S100000x64, .f32⟩ : BufTy).Contents (Elt Ideal)) (x1 : (⟨Cert.KernelIdeal.S4x100000, .f32⟩ : BufTy).Contents (Elt Ideal))
    (x2 : (⟨K.S800000, .f32⟩ : BufTy).Contents (Elt Ideal)) (x3 : (⟨Cert.KernelIdeal.S100000, .i32⟩ : BufTy).Contents (Elt Ideal))
    (x4 x5 : (⟨K.S800000, .i32⟩ : BufTy).Contents (Elt Ideal)) :
    outerArr (F := Ideal) (opAOf x1 x2 x3 x5) (opHOf x0 x2 x4 x5) = Read.val_main_v36 (F := Ideal) x0 x1 x2 x3 x4 x5 := by
  funext i
  obtain ⟨k, j, rfl⟩ : ∃ (k : Fin 800000) (j : Fin 256), i = ix2 k j := ⟨i 0, i 1, eq_ix2 i⟩
  have hA : opAOf x1 x2 x3 x5
      = mulf (F := Ideal) (φ := .f32) (Host.gather Cert.KernelIdeal.gather_S100000x4_S800000x1_S800000x4_1_0_n_n_0_1_14
            (Read.val_main_v20 (F := Ideal) x1 x3) (Read.val_main_v32 (F := Ideal) x5))
          (broadcastInDim K.S800000x4 ![0, 1] Cert.KernelIdeal.Gen.bcast_S800000x1_S800000x4_0_1
            (broadcastInDim K.S800000x1 ![0] Cert.KernelIdeal.Gen.bcast_S800000_S800000x1_0 x2)) := rfl
  have hH : opHOf x0 x2 x4 x5
      = Host.gather Cert.KernelIdeal.gather_S100000x64_S800000x1_S800000x64_1_0_n_n_0_1_164
          (Read.val_main_v12 (F := Ideal) x0 x2 x4 x5) (Read.val_main_v32 (F := Ideal) x5) := rfl
  rw [hA, hH, kernel_entry, ref_entry]
  simp only [Ideal.mulf_def]
  exact mul_right_comm _ _ _

end Cert.Bridge

end
-- ==== Proof.lean ====
/- Hyperedge message passing with rank masks: the kernel program against its jnp reference, over the extended reals.

   Both programs first form the hyperedge features `he_feat[e, f] = Σ_{k : cols[k] = e} x[rows[k], f] * vals[k]` and the
   transposed, gathered rank masks `rm_t[e, r] = rank_masks[r, he_idxs[e]]`, by the same operations. Per edge `k` with
   hyperedge `e = cols[k]` they then form a contribution row of 256 = 4 * 64 entries, sum the rows into their node by
   `rows`, read the sums as `[100000, 4, 64]` and overwrite rank slot 3 with `x`.
   The reference builds the outer products `rm_t[e, r] * he_feat[e, f]` for every hyperedge, flattens them, gathers row
   `e` and scales it by `vals[k]`. The kernel program gathers `rm_t[e, ·]` and `he_feat[e, ·]` separately, scales the
   rank-mask row by `vals[k]`, and its Pallas kernel forms the outer product row by row, 4000 edges per grid point.
   So the contributions differ only in the grouping of a triple product, `(a * v) * h` against `(a * h) * v`, equal in
   the extended reals (a commutative monoid), infinities included: the claim needs no finiteness of the inputs.

   The frames of the two kernel programs are the generated ones; the reference's frame is its generated run. The
   kernel's value (body, blocks to array, the host operations around it) is in Proof/OuterBody, OuterArray, KernelTerms,
   OperandA, OperandH and KernelRun; the comparison is Proof/Bridge, over a general row-gather lemma (LibGatherRows). -/
import proofs.«130530_j44117904065324_1_alg».proof.Defs
import proofs.«130530_j44117904065324_1_alg».proof.Proof.Gen.Kernel
import proofs.«130530_j44117904065324_1_alg».proof.Proof.Gen.Kernel.Skeleton
import proofs.«130530_j44117904065324_1_alg».proof.Proof.Gen.Kernel.Launch
import proofs.«130530_j44117904065324_1_alg».proof.Proof.Gen.Kernel.Points
import proofs.«130530_j44117904065324_1_alg».proof.Proof.Gen.Kernel.Frame
import proofs.«130530_j44117904065324_1_alg».proof.Proof.Gen.KernelIdeal
import proofs.«130530_j44117904065324_1_alg».proof.Proof.Gen.KernelIdeal.Skeleton
import proofs.«130530_j44117904065324_1_alg».proof.Proof.Gen.KernelIdeal.Launch
import proofs.«130530_j44117904065324_1_alg».proof.Proof.Gen.KernelIdeal.Points
import proofs.«130530_j44117904065324_1_alg».proof.Proof.Gen.KernelIdeal.Frame
import proofs.«130530_j44117904065324_1_alg».proof.Proof.Gen.ReferenceIdeal
import proofs.«130530_j44117904065324_1_alg».proof.Proof.Gen.Pre_finite_inputs
import proofs.«130530_j44117904065324_1_alg».proof.Proof.Gen.ReferenceIdeal.Run
import proofs.«130530_j44117904065324_1_alg».proof.Proof.Gen.ReferenceIdeal.Read
import proofs.«130530_j44117904065324_1_alg».proof.Proof.KernelRun
import proofs.«130530_j44117904065324_1_alg».proof.Proof.Bridge
import Idealize.ShloMosaic.Adequacy
import Idealize.ShloMosaic.Init

noncomputable section

namespace Cert.Proof

open Idealize.ShloMosaic Idealize.SL.Sem

/-- Both kernel programs run, fault-free, and keep their arguments: the generated frames. -/
theorem frame_kernel : Cert.frame_Kernel := fun m ρ _ => Cert.Kernel.Gen.frame m ρ
theorem frame_kernelIdeal : Cert.frame_KernelIdeal := fun m ρ _ => Cert.KernelIdeal.Gen.frame m ρ

/-- The reference is a straight line of host operations: its run, with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The ideal pass rewrote nothing: the idealized kernel is the kernel's own text read at the ideal instance. -/
theorem preserves : Cert.preserves_Kernel_KernelIdeal := trivial

/-- From memories agreeing on the arguments both programs end with the common tail applied to their per-edge
    contributions, and the contributions are one array (`Cert.Bridge.contributions_eq`). -/
theorem algebraic : Cert.algebraic_KernelIdeal_ReferenceIdeal := by
  intro m ρ m' ρ' _ hagree
  refine ⟨_, Cert.KernelIdeal.Outer.run (F := Ideal) m ρ, ?_⟩
  refine (θ_run Cert.ReferenceIdeal.defs _ _).mono (fun _ h c => ⟨(h c).1.trans ?_, (h c).2⟩)
    (Cert.ReferenceIdeal.Value.run (F := Ideal) m' ρ')
  refine (Cert.ReferenceIdeal.Read.val_main_v42_eq _ _ _ _ _ _).trans ?_
  rw [(hagree c).1, (hagree c).2.1, (hagree c).2.2.1, (hagree c).2.2.2.1, (hagree c).2.2.2.2.1, (hagree c).2.2.2.2.2,
    Cert.Bridge.ref_result]
  exact congrArg (Cert.KernelIdeal.Outer.tailOf _ _) (Cert.Bridge.contributions_eq _ _ _ _ _ _).symm

theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves, algebraic⟩

end Cert.Proof

end
